-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩
abbrev S2000x128 : Shape := ⟨2, ![2000, 128]⟩

abbrev nBuf : Space → Nat
  | .hbm => 63
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .f32⟩
  | .hbm, ⟨35, _⟩ => ⟨S100000x128, .f32⟩
  | .hbm, ⟨36, _⟩ => ⟨S640000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x128, .f32⟩
  | .hbm, ⟨53, _⟩ => ⟨S_, .f32⟩
  | .hbm, ⟨54, _⟩ => ⟨S100000x128, .f32⟩
  | .hbm, ⟨55, _⟩ => ⟨S640000x1, .i32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_v0 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call1_v0 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call1_v0) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S100000x128, .f32⟩
  | .hbm, ⟨59, _⟩ => ⟨S640000x1, .i32⟩
  | .hbm, ⟨60, _⟩ => ⟨S100000x128, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S100000, .f32⟩
  | .hbm, ⟨65, _⟩ => ⟨S640000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  Two rounds of neighbour averaging followed by a linear combination (a two-layer graph convolution), written once as
  whole-array functions of the arguments.

  An edge list `E` (row 0 the sources, row 1 the destinations) and a node matrix `H` give, for every node, the sum of the
  rows of `H` at the sources of its incoming edges (`agg`), and the number of incoming edges, raised to at least one
  (`deg`). The neighbour average is the quotient of the two (`mean`); a program may equally multiply by the reciprocal
  (`meanRecip`). One layer is `mean · Wlᵀ + b + H · Wrᵀ` (`conv`), the first followed by a rectifier, and the result is
  the second layer of the first (`out`).
-/
import proofs.«130684_j16381005267298_1_alg».proof.ReferenceIdeal
import proofs.«130684_j16381005267298_1_alg».proof.Proof.Gen.ReferenceIdeal

noncomputable section

namespace Cert.Sage

open Idealize.ShloMosaic Cert.ReferenceIdeal Cert.ReferenceIdeal.Gen

variable {F : FTy → Type} [FloatOps F]

/-- The edge list: two rows of node numbers. -/
abbrev Edges (F : FTy → Type) : Type := (⟨S2x640000, .i32⟩ : BufTy).Contents (Elt F)

/-- The destination of every edge. -/
def dstRow (E : Edges F) : (⟨S640000, .i32⟩ : BufTy).Contents (Elt F) :=
  shapeCast _ (extractStridedSlice S1x640000 ![1, 0] E slices_S2x640000_S1x640000_1_0) shapeCasts_S1x640000_S640000

/-- The destinations as a column of indices. -/
def dstCol (E : Edges F) : (⟨S640000x1, .i32⟩ : BufTy).Contents (Elt F) :=
  broadcastInDim S640000x1 ![0] bcast_S640000_S640000x1_0 (dstRow E)

/-- The source of every edge. -/
def srcRow (E : Edges F) : (⟨S640000, .i32⟩ : BufTy).Contents (Elt F) :=
  shapeCast _ (extractStridedSlice S1x640000 ![0, 0] E slices_S2x640000_S1x640000_0_0) shapeCasts_S1x640000_S640000

/-- The sources as a column of indices, a negative one counted from the end. -/
def srcCol (E : Edges F) : (⟨S640000x1, .i32⟩ : BufTy).Contents (Elt F) :=
  broadcastInDim S640000x1 ![0] bcast_S640000_S640000x1_0
    (select (cmpi .slt (srcRow E) (broadcastInDim S640000 ![] bcast_S_S640000 (constantI S_ 32 0#32)))
      (addi (srcRow E) (broadcastInDim S640000 ![] bcast_S_S640000 (constantI S_ 32 100000#32))) (srcRow E))

/-- Per node, the sum of the rows of `H` at the sources of its incoming edges. -/
def agg (E : Edges F) (H : FVec F S100000x128 .f32) : FVec F S100000x128 .f32 :=
  Host.scatterAdd scatter_S100000x128_S640000x1_S640000x128_1_0_0_1
    (broadcastInDim S100000x128 ![] bcast_S_S100000x128 (constant S_ .f32 0x00000000#32)) (dstCol E)
    (Host.gather gather_S100000x128_S640000x1_S640000x128_1_0_n_n_0_1_1128 H (srcCol E))

/-- Per node, the number of incoming edges, and one where there is none. -/
def deg (E : Edges F) : FVec F S100000 .f32 :=
  maximumf
    (Host.scatterAdd scatter_S100000_S640000x1_S640000_n_0_0_1
      (broadcastInDim S100000 ![] bcast_S_S100000 (constant S_ .f32 0x00000000#32)) (dstCol E)
      (broadcastInDim S640000 ![] bcast_S_S640000 (constant S_ .f32 0x3F800000#32)))
    (broadcastInDim S100000 ![] bcast_S_S100000 (constant S_ .f32 0x3F800000#32))

/-- A value per node as a column. -/
def col (v : FVec F S100000 .f32) : FVec F S100000x1 .f32 := broadcastInDim S100000x1 ![0] bcast_S100000_S100000x1_0 v

/-- A value per node repeated along the node's row. -/
def spread (v : FVec F S100000 .f32) : FVec F S100000x128 .f32 :=
  broadcastInDim S100000x128 ![0, 1] bcast_S100000x1_S100000x128_0_1 (col v)

/-- The reciprocal of the count, as a column. -/
def recipCol (E : Edges F) : FVec F S100000x1 .f32 :=
  col (Host.divf (broadcastInDim S100000 ![] bcast_S_S100000 (constant S_ .f32 0x3F800000#32)) (deg E))

/-- The neighbour average as a quotient. -/
def mean (E : Edges F) (H : FVec F S100000x128 .f32) : FVec F S100000x128 .f32 :=
  Host.divf (agg E H) (spread (deg E))

/-- The neighbour average as a product with the reciprocal of the count. -/
def meanRecip (E : Edges F) (H : FVec F S100000x128 .f32) : FVec F S100000x128 .f32 :=
  mulf (agg E H)
    (spread (Host.divf (broadcastInDim S100000 ![] bcast_S_S100000 (constant S_ .f32 0x3F800000#32)) (deg E)))

/-- The rectifier. -/
def relu (X : FVec F S100000x128 .f32) : FVec F S100000x128 .f32 :=
  maximumf X (broadcastInDim S100000x128 ![] bcast_S_S100000x128 (constant S_ .f32 0x00000000#32))

/-- `Mn · A + b + H · B`, the bias a row repeated over all rows. -/
def comb (Mn H : FVec F S100000x128 .f32) (A B : FVec F S128x128 .f32) (bR : FVec F S1x128 .f32) : FVec F S100000x128 .f32 :=
  addf (addf (Host.dotGeneral dot_S100000x128_S128x128_S100000x128_1_0_0_1_n_n none Mn A)
      (broadcastInDim S100000x128 ![0, 1] bcast_S1x128_S100000x128_0_1 bR))
    (Host.dotGeneral dot_S100000x128_S128x128_S100000x128_1_0_0_1_n_n none H B)

/-- The first pallas_call's layer on whole matrices: rectified. -/
def layer0 (Mn H : FVec F S100000x128 .f32) (A B : FVec F S128x128 .f32) (bR : FVec F S1x128 .f32) : FVec F S100000x128 .f32 :=
  relu (comb Mn H A B bR)

/-- The second pallas_call's layer on whole matrices. -/
def layer1 (Mn H : FVec F S100000x128 .f32) (A B : FVec F S128x128 .f32) (bR : FVec F S1x128 .f32) : FVec F S100000x128 .f32 :=
  comb Mn H A B bR

/-- The bias vector as a one-row matrix. -/
def biasRow (b : FVec F S128 .f32) : FVec F S1x128 .f32 := broadcastInDim S1x128 ![1] bcast_S128_S1x128_1 b

/-- The transposed weight matrix. -/
def tr (W : FVec F S128x128 .f32) : FVec F S128x128 .f32 := transpose S128x128 [1, 0] W transposes_S128x128_S128x128_1_0

/-- One layer: the neighbour average through `Wlᵀ`, the bias, the node's own row through `Wrᵀ`. -/
def conv (E : Edges F) (H : FVec F S100000x128 .f32) (Wl Wr : FVec F S128x128 .f32) (b : FVec F S128 .f32) : FVec F S100000x128 .f32 :=
  comb (mean E H) H (tr Wl) (tr Wr) (biasRow b)

/-- The two layers. -/
def out (E : Edges F) (x : FVec F S100000x128 .f32) (W1l W1r : FVec F S128x128 .f32) (b1 : FVec F S128 .f32)
    (W2l W2r : FVec F S128x128 .f32) (b2 : FVec F S128 .f32) : FVec F S100000x128 .f32 :=
  conv E (relu (conv E x W1l W1r b1)) W2l W2r b2

end Cert.Sage

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.Payload.lean ====
/-
  The two kernel bodies on a block of 2000 rows, against one layer on the whole matrix.

  Each body multiplies its block of the averaged rows and its block of the node rows by the two weight matrices, adds the
  products and then the bias row (the first body also takes the maximum with zero). The layer on the whole matrix adds the
  bias between the two products. Row `r` of every term depends on rows `r` of the operands only, so the body's result is
  the block of rows of the layer's result; the two orders of the three summands agree because addition of extended reals is
  commutative and associative.
-/
import proofs.«130684_j16381005267298_1_alg».proof.Proof.Gen.KernelIdeal.Skeleton
import proofs.«130684_j16381005267298_1_alg».proof.Proof.Spec
import proofs.«130684_j16381005267298_1_alg».proof.Proof.LibRowBlock

noncomputable section

namespace Cert.Sage

open Idealize.ShloMosaic Idealize.ShloMosaic.ValueIdx Cert.RowBlock

/-- A one-row matrix repeated over all rows: its row block is the row repeated over the block's rows. -/
theorem biasRow_rows {N n B t : Nat} (bR : FVec Ideal ⟨2, ![1, n]⟩ .f32)
    (h2 : (⟨2, ![1, n]⟩ : Shape).BroadcastsInDim ⟨2, ![N, n]⟩ ![0, 1]) (hb : (⟨2, ![1, n]⟩ : Shape).Broadcasts ⟨2, ![B, n]⟩) :
    IsRows B t (broadcastInDim ⟨2, ![N, n]⟩ ![0, 1] h2 bR) (broadcastTo ⟨2, ![B, n]⟩ bR hb) := by
  intro p j r _
  rw [broadcastTo_1b_ab_apply]
  refine Eq.symm (broadcastInDim_apply ![0, 1] h2 _ (ix2 r j) (ix2 (0 : Fin 1) j) fun a => ?_)
  match a with
  | ⟨0, _⟩ => rfl
  | ⟨1, _⟩ =>
    show j.val = if n = 1 then 0 else j.val
    split
    · have := j.isLt; omega
    · rfl

theorem plainK : IsRows.Plain Cert.KernelIdeal.dot_S2000x128_S128x128_S2000x128_1_0_0_1_n_n 1 0 0 1 :=
  ⟨rfl, rfl, rfl, rfl, rfl, rfl⟩
theorem plainR : IsRows.Plain Cert.ReferenceIdeal.dot_S100000x128_S128x128_S100000x128_1_0_0_1_n_n 1 0 0 1 :=
  ⟨rfl, rfl, rfl, rfl, rfl, rfl⟩

/-- The second body: the block of rows of the second layer. -/
theorem body1_rows {t : Nat} (M X : FVec Ideal Cert.ReferenceIdeal.S100000x128 .f32) (x0 x1 : Vec Ideal Cert.KernelIdeal.S2000x128 .f32)
    (A B : FVec Ideal Cert.ReferenceIdeal.S128x128 .f32) (bR : FVec Ideal Cert.ReferenceIdeal.S1x128 .f32)
    (H0 : IsRows 2000 t M x0) (H1 : IsRows 2000 t X x1) :
    IsRows 2000 t (layer1 M X A B bR) (Cert.KernelIdeal.Gen.k1_pay1 x0 x1 A B bR) := by
  unfold Cert.KernelIdeal.Gen.k1_pay1 layer1 comb
  simp only [shapeCast_self]
  have hd0 := IsRows.dot (φ₁ := .f32) (φ₂ := .f32) H0 Cert.ReferenceIdeal.dot_S100000x128_S128x128_S100000x128_1_0_0_1_n_n
    Cert.KernelIdeal.dot_S2000x128_S128x128_S2000x128_1_0_0_1_n_n plainR plainK A A (fun _ _ => rfl)
  have hd1 := IsRows.dot (φ₁ := .f32) (φ₂ := .f32) H1 Cert.ReferenceIdeal.dot_S100000x128_S128x128_S100000x128_1_0_0_1_n_n
    Cert.KernelIdeal.dot_S2000x128_S128x128_S2000x128_1_0_0_1_n_n plainR plainK B B (fun _ _ => rfl)
  have hb := biasRow_rows (N := 100000) (B := 2000) (t := t) bR Cert.ReferenceIdeal.Gen.bcast_S1x128_S100000x128_0_1
    Cert.KernelIdeal.Gen.broadcasts_S1x128_S2000x128
  intro p j r hr
  rw [addf_apply, addf_apply, addf_apply, addf_apply, hd0 p j r hr, hd1 p j r hr, hb p j r hr, add_right_comm]

/-- The first body: the block of rows of the first, rectified layer. -/
theorem body0_rows {t : Nat} (M X : FVec Ideal Cert.ReferenceIdeal.S100000x128 .f32) (x0 x1 : Vec Ideal Cert.KernelIdeal.S2000x128 .f32)
    (A B : FVec Ideal Cert.ReferenceIdeal.S128x128 .f32) (bR : FVec Ideal Cert.ReferenceIdeal.S1x128 .f32)
    (H0 : IsRows 2000 t M x0) (H1 : IsRows 2000 t X x1) :
    IsRows 2000 t (layer0 M X A B bR) (Cert.KernelIdeal.Gen.k0_pay1 x0 x1 A B bR) := by
  unfold Cert.KernelIdeal.Gen.k0_pay1 layer0 relu comb
  simp only [shapeCast_self]
  have hd0 := IsRows.dot (φ₁ := .f32) (φ₂ := .f32) H0 Cert.ReferenceIdeal.dot_S100000x128_S128x128_S100000x128_1_0_0_1_n_n
    Cert.KernelIdeal.dot_S2000x128_S128x128_S2000x128_1_0_0_1_n_n plainR plainK A A (fun _ _ => rfl)
  have hd1 := IsRows.dot (φ₁ := .f32) (φ₂ := .f32) H1 Cert.ReferenceIdeal.dot_S100000x128_S128x128_S100000x128_1_0_0_1_n_n
    Cert.KernelIdeal.dot_S2000x128_S128x128_S2000x128_1_0_0_1_n_n plainR plainK B B (fun _ _ => rfl)
  have hb := biasRow_rows (N := 100000) (B := 2000) (t := t) bR Cert.ReferenceIdeal.Gen.bcast_S1x128_S100000x128_0_1
    Cert.KernelIdeal.Gen.broadcasts_S1x128_S2000x128
  refine IsRows.maxf ?_ (IsRows.splat .f32 _ _)
  intro p j r hr
  rw [addf_apply, addf_apply, addf_apply, addf_apply, hd0 p j r hr, hd1 p j r hr, hb p j r hr, add_right_comm]

end Cert.Sage

end
-- ==== Proof.Region0.lean ====
/-
  What pallas_call 0 leaves in its result array: one layer on the whole matrices the call is given.

  The grid has 50 points; point `t` reads rows `2000·t … 2000·t + 1999` of the two node matrices, the two weight matrices
  and the bias row whole, and writes rows `2000·t … 2000·t + 1999` of the result. The body's result is that block of rows
  of the layer on the whole matrices, the 50 blocks tile the result, so the result array ends holding the layer.
-/
import proofs.«130684_j16381005267298_1_alg».proof.Proof.Gen.KernelIdeal.Frame
import proofs.«130684_j16381005267298_1_alg».proof.Proof.Payload
import Idealize.ShloMosaic.Lib.Pipeline.Value

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat)
open Cert.RowBlock

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows are on block `t`, the others on block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The arrays the call is given, each under its literal type. -/
abbrev arrM (c : Dev nD) : FVec Ideal S100000x128 .f32 := V c main_v24
abbrev arrX (c : Dev nD) : FVec Ideal S100000x128 .f32 := V c main_arg0
abbrev arrA (c : Dev nD) : FVec Ideal S128x128 .f32 := V c main_v25
abbrev arrB (c : Dev nD) : FVec Ideal S128x128 .f32 := V c main_v26
abbrev arrb (c : Dev nD) : FVec Ideal S1x128 .f32 := V c main_call0_v0
/-- The blocks a point reads, each under its literal type. -/
abbrev blkM (c : Dev nD) (t : Fin cfg0.N) : Vec Ideal S2000x128 .f32 := iblk0 V c 0 t
abbrev blkX (c : Dev nD) (t : Fin cfg0.N) : Vec Ideal S2000x128 .f32 := iblk0 V c 1 t
abbrev blkA (c : Dev nD) (t : Fin cfg0.N) : Vec Ideal S128x128 .f32 := iblk0 V c 2 t
abbrev blkB (c : Dev nD) (t : Fin cfg0.N) : Vec Ideal S128x128 .f32 := iblk0 V c 3 t
abbrev blkb (c : Dev nD) (t : Fin cfg0.N) : Vec Ideal S1x128 .f32 := iblk0 V c 4 t

/-- Point `t`'s block of the averaged rows is rows `2000·t …` of the array. -/
theorem blkM_rows (c : Dev nD) (t : Fin cfg0.N) : IsRows 2000 t.val (arrM V c) (blkM V c t) := by
  intro p j r hr
  obtain ⟨e0, e1, -⟩ := idx_facts t
  show V c main_v24 (((cfg0.win 0).blk t).view.emb (ix2 p j)) = V c main_v24 (ix2 r j)
  refine congrArg _ (funext fun a => Fin.ext ?_)
  match a with
  | ⟨0, _⟩ => show win0_0.index t (0 : Fin 2) * 2000 + 1 * p.val = r.val; omega
  | ⟨1, _⟩ => show win0_0.index t (1 : Fin 2) * 128 + 1 * j.val = j.val; omega

/-- Point `t`'s block of the node rows is rows `2000·t …` of the array. -/
theorem blkX_rows (c : Dev nD) (t : Fin cfg0.N) : IsRows 2000 t.val (arrX V c) (blkX V c t) := by
  intro p j r hr
  obtain ⟨-, -, e0, e1, -⟩ := idx_facts t
  show V c main_arg0 (((cfg0.win 1).blk t).view.emb (ix2 p j)) = V c main_arg0 (ix2 r j)
  refine congrArg _ (funext fun a => Fin.ext ?_)
  match a with
  | ⟨0, _⟩ => show win0_1.index t (0 : Fin 2) * 2000 + 1 * p.val = r.val; omega
  | ⟨1, _⟩ => show win0_1.index t (1 : Fin 2) * 128 + 1 * j.val = j.val; omega

/-- Every point reads the two weight matrices and the bias row whole. -/
theorem blkA_eq (c : Dev nD) (t : Fin cfg0.N) : blkA V c t = arrA V c := by
  funext y
  obtain ⟨-, -, -, -, e0, e1, -⟩ := idx_facts t
  show V c main_v25 (((cfg0.win 2).blk t).view.emb y) = V c main_v25 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem blkB_eq (c : Dev nD) (t : Fin cfg0.N) : blkB V c t = arrB V c := by
  funext y
  obtain ⟨-, -, -, -, -, -, e0, e1, -⟩ := idx_facts t
  show V c main_v26 (((cfg0.win 3).blk t).view.emb y) = V c main_v26 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem blkb_eq (c : Dev nD) (t : Fin cfg0.N) : blkb V c t = arrb V c := by
  funext y
  obtain ⟨-, -, -, -, -, -, -, -, e0, e1, -⟩ := idx_facts t
  show V c main_call0_v0 (((cfg0.win 4).blk t).view.emb y) = V c main_call0_v0 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The layer on the whole matrices the call is given. -/
abbrev layer (c : Dev nD) : FVec Ideal S100000x128 .f32 :=
  Cert.Sage.layer0 (arrM V c) (arrX V c) (arrA V c) (arrB V c) (arrb V c)

/-- What point `t` writes back is rows `2000·t …` of the layer. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  obtain ⟨-, -, -, -, -, -, -, -, -, -, e0, e1⟩ := idx_facts t
  have ht : t.val < 50 := lt_of_lt_of_eq t.isLt N_0
  have hr : 2000 * t.val + p.val < 100000 := by have := p.isLt; omega
  rw [View.read_apply]
  have hemb : ((cfg0.win 5).blk t).view.emb (ix2 p q) = ix2 (⟨2000 * t.val + p.val, hr⟩ : Fin 100000) q := by
    funext a; apply Fin.ext
    match a with
    | ⟨0, _⟩ => show win0_5.index t (0 : Fin 2) * 2000 + 1 * p.val = 2000 * t.val + p.val; omega
    | ⟨1, _⟩ => show win0_5.index t (1 : Fin 2) * 128 + 1 * q.val = q.val; omega
  rw [hemb]
  show k0_pay1 (blkM V c t) (blkX V c t) (blkA V c t) (blkB V c t) (blkb V c t) (ix2 p q) = _
  rw [blkA_eq, blkB_eq, blkb_eq]
  exact Cert.Sage.body0_rows (arrM V c) (arrX V c) (blkM V c t) (blkX V c t) (arrA V c) (arrB V c) (arrb V c)
    (blkM_rows V c t) (blkX_rows V c t) p q ⟨2000 * t.val + p.val, hr⟩ rfl

/-- An index of the result is in point `t`'s block iff its row is among the block's 2000 and its column among the 128. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v27).slice (win0_5.rect t)).set ↔ _
  rw [View.set_slice_whole, Rect.mem_set_unit]
  exact Iff.rfl

/-- The 50 blocks cover the result. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_5 _, ?_⟩
  rw [mem_blk]
  obtain ⟨-, -, -, -, -, -, -, -, -, -, e0, e1⟩ := idx_facts ⟨(i 0).val / 2000, by rw [hN]; omega⟩
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 128 ≤ (i 1).val ∧ (i 1).val < win0_5.index _ (1 : Fin 2) * 128 + 128
    rw [e1]; omega

/-- The result array after the call is the layer on the whole matrices. -/
theorem final (c : Dev nD) : (dat0 V c).arrAt 5 cfg0.N = layer V c :=
  (dat0 V c).arrAt_eq_of_cover 5 (layer V c) (fun t _ => flushed_eq V c t) cover

end Cert.KernelIdeal.Layer0

end
-- ==== Proof.Region1.lean ====
/-
  What pallas_call 1 leaves in its result array: one layer on the whole matrices the call is given.

  The grid has 50 points; point `t` reads rows `2000·t … 2000·t + 1999` of the two node matrices, the two weight matrices
  and the bias row whole, and writes rows `2000·t … 2000·t + 1999` of the result. The body's result is that block of rows
  of the layer on the whole matrices, the 50 blocks tile the result, so the result array ends holding the layer.
-/
import proofs.«130684_j16381005267298_1_alg».proof.Proof.Gen.KernelIdeal.Frame
import proofs.«130684_j16381005267298_1_alg».proof.Proof.Payload
import Idealize.ShloMosaic.Lib.Pipeline.Value

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)
open Cert.RowBlock

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows are on block `t`, the others on block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The arrays the call is given, each under its literal type. -/
abbrev arrM (c : Dev nD) : FVec Ideal S100000x128 .f32 := V c main_v39
abbrev arrX (c : Dev nD) : FVec Ideal S100000x128 .f32 := V c main_v27
abbrev arrA (c : Dev nD) : FVec Ideal S128x128 .f32 := V c main_v40
abbrev arrB (c : Dev nD) : FVec Ideal S128x128 .f32 := V c main_v41
abbrev arrb (c : Dev nD) : FVec Ideal S1x128 .f32 := V c main_call1_v0
/-- The blocks a point reads, each under its literal type. -/
abbrev blkM (c : Dev nD) (t : Fin cfg1.N) : Vec Ideal S2000x128 .f32 := iblk1 V c 0 t
abbrev blkX (c : Dev nD) (t : Fin cfg1.N) : Vec Ideal S2000x128 .f32 := iblk1 V c 1 t
abbrev blkA (c : Dev nD) (t : Fin cfg1.N) : Vec Ideal S128x128 .f32 := iblk1 V c 2 t
abbrev blkB (c : Dev nD) (t : Fin cfg1.N) : Vec Ideal S128x128 .f32 := iblk1 V c 3 t
abbrev blkb (c : Dev nD) (t : Fin cfg1.N) : Vec Ideal S1x128 .f32 := iblk1 V c 4 t

/-- Point `t`'s block of the averaged rows is rows `2000·t …` of the array. -/
theorem blkM_rows (c : Dev nD) (t : Fin cfg1.N) : IsRows 2000 t.val (arrM V c) (blkM V c t) := by
  intro p j r hr
  obtain ⟨e0, e1, -⟩ := idx_facts t
  show V c main_v39 (((cfg1.win 0).blk t).view.emb (ix2 p j)) = V c main_v39 (ix2 r j)
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * j.val = j.val; omega

/-- Point `t`'s block of the node rows is rows `2000·t …` of the array. -/
theorem blkX_rows (c : Dev nD) (t : Fin cfg1.N) : IsRows 2000 t.val (arrX V c) (blkX V c t) := by
  intro p j r hr
  obtain ⟨-, -, e0, e1, -⟩ := idx_facts t
  show V c main_v27 (((cfg1.win 1).blk t).view.emb (ix2 p j)) = V c main_v27 (ix2 r j)
  refine congrArg _ (funext fun a => Fin.ext ?_)
  match a with
  | ⟨0, _⟩ => show win1_1.index t (0 : Fin 2) * 2000 + 1 * p.val = r.val; omega
  | ⟨1, _⟩ => show win1_1.index t (1 : Fin 2) * 128 + 1 * j.val = j.val; omega

/-- Every point reads the two weight matrices and the bias row whole. -/
theorem blkA_eq (c : Dev nD) (t : Fin cfg1.N) : blkA V c t = arrA V c := by
  funext y
  obtain ⟨-, -, -, -, e0, e1, -⟩ := idx_facts t
  show V c main_v40 (((cfg1.win 2).blk t).view.emb y) = V c main_v40 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega
theorem blkB_eq (c : Dev nD) (t : Fin cfg1.N) : blkB V c t = arrB V c := by
  funext y
  obtain ⟨-, -, -, -, -, -, e0, e1, -⟩ := idx_facts t
  show V c main_v41 (((cfg1.win 3).blk t).view.emb y) = V c main_v41 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega
theorem blkb_eq (c : Dev nD) (t : Fin cfg1.N) : blkb V c t = arrb V c := by
  funext y
  obtain ⟨-, -, -, -, -, -, -, -, e0, e1, -⟩ := idx_facts t
  show V c main_call1_v0 (((cfg1.win 4).blk t).view.emb y) = V c main_call1_v0 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The layer on the whole matrices the call is given. -/
abbrev layer (c : Dev nD) : FVec Ideal S100000x128 .f32 :=
  Cert.Sage.layer1 (arrM V c) (arrX V c) (arrA V c) (arrB V c) (arrb V c)

/-- What point `t` writes back is rows `2000·t …` of the layer. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  obtain ⟨-, -, -, -, -, -, -, -, -, -, e0, e1⟩ := idx_facts t
  have ht : t.val < 50 := lt_of_lt_of_eq t.isLt N_1
  have hr : 2000 * t.val + p.val < 100000 := by have := p.isLt; omega
  rw [View.read_apply]
  have hemb : ((cfg1.win 5).blk t).view.emb (ix2 p q) = ix2 (⟨2000 * t.val + p.val, hr⟩ : Fin 100000) q := by
    funext a; apply Fin.ext
    match a with
    | ⟨0, _⟩ => show win1_5.index t (0 : Fin 2) * 2000 + 1 * p.val = 2000 * t.val + p.val; omega
    | ⟨1, _⟩ => show win1_5.index t (1 : Fin 2) * 128 + 1 * q.val = q.val; omega
  rw [hemb]
  show k1_pay1 (blkM V c t) (blkX V c t) (blkA V c t) (blkB V c t) (blkb V c t) (ix2 p q) = _
  rw [blkA_eq, blkB_eq, blkb_eq]
  exact Cert.Sage.body1_rows (arrM V c) (arrX V c) (blkM V c t) (blkX V c t) (arrA V c) (arrB V c) (arrb V c)
    (blkM_rows V c t) (blkX_rows V c t) p q ⟨2000 * t.val + p.val, hr⟩ rfl

/-- An index of the result is in point `t`'s block iff its row is among the block's 2000 and its column among the 128. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v42).slice (win1_5.rect t)).set ↔ _
  rw [View.set_slice_whole, Rect.mem_set_unit]
  exact Iff.rfl

/-- The 50 blocks cover the result. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_5 _, ?_⟩
  rw [mem_blk]
  obtain ⟨-, -, -, -, -, -, -, -, -, -, e0, e1⟩ := idx_facts ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [e0]; show (i 0).val / 2000 * 2000 ≤ (i 0).val ∧ (i 0).val < (i 0).val / 2000 * 2000 + 2000; omega
  | ⟨1, _⟩ =>
    show win1_5.index _ (1 : Fin 2) * 128 ≤ (i 1).val ∧ (i 1).val < win1_5.index _ (1 : Fin 2) * 128 + 128
    rw [e1]; omega

/-- The result array after the call is the layer on the whole matrices. -/
theorem final (c : Dev nD) : (dat1 V c).arrAt 5 cfg1.N = layer V c :=
  (dat1 V c).arrAt_eq_of_cover 5 (layer V c) (fun t _ => flushed_eq V c t) cover

end Cert.KernelIdeal.Layer1

end
-- ==== Proof.HostChain.lean ====
/-
  The contents of the arrays the two pallas_calls are given, read off the host operations that run before each call.

  Before the first call the program computes, from the arguments, the neighbour average of the node features as a product
  with the reciprocal count, the two transposed weight matrices and the bias as a one-row matrix. Between the calls it
  computes the same from the first call's result, the edge list and the reciprocal counts being those computed at the
  start. Each array holds the composed term of the operations that wrote it; a buffer no operation of a stretch writes is
  read through the stretch unchanged.
-/
import proofs.«130684_j16381005267298_1_alg».proof.Proof.Gen.KernelIdeal.Frame
import proofs.«130684_j16381005267298_1_alg».proof.Proof.Spec
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first call -/

set_option maxHeartbeats 4000000 in
/-- The averaged node features the first call reads: the product with the reciprocal count. -/
theorem W2_v24 (c : Dev nD) : W2 m ρ c (Proc.devRef .tc main_v24)
    = Cert.Sage.meanRecip (m ((c.tc : Thread nD τ).loc main_arg1)) (m ((c.tc : Thread nD τ).loc main_arg0)) := by
  dsimp only [W2, W1]
  after_results_simp
  rfl

set_option maxHeartbeats 4000000 in
theorem W2_arg0 (c : Dev nD) : W2 m ρ c (Proc.devRef .tc main_arg0) = m ((c.tc : Thread nD τ).loc main_arg0) := by
  dsimp only [W2, W1]
  after_results_simp

set_option maxHeartbeats 4000000 in
theorem W2_v25 (c : Dev nD) : W2 m ρ c (Proc.devRef .tc main_v25) = Cert.Sage.tr (m ((c.tc : Thread nD τ).loc main_arg2)) := by
  dsimp only [W2, W1]
  after_results_simp
  rfl

set_option maxHeartbeats 4000000 in
theorem W2_v26 (c : Dev nD) : W2 m ρ c (Proc.devRef .tc main_v26) = Cert.Sage.tr (m ((c.tc : Thread nD τ).loc main_arg3)) := by
  dsimp only [W2, W1]
  after_results_simp
  rfl

set_option maxHeartbeats 4000000 in
/-- The first bias as a one-row matrix: the vector re-laid. -/
theorem W2_call0_v0 (c : Dev nD) : W2 m ρ c (Proc.devRef .tc main_call0_v0)
    = shapeCast S1x128 (m ((c.tc : Thread nD τ).loc main_arg4)) shapeCasts_S128_S1x128 := by
  dsimp only [W2, W1]
  after_results_simp
  rfl

set_option maxHeartbeats 4000000 in
theorem W2_v1 (c : Dev nD) : W2 m ρ c (Proc.devRef .tc main_v1) = Cert.Sage.srcRow (m ((c.tc : Thread nD τ).loc main_arg1)) := by
  dsimp only [W2, W1]
  after_results_simp
  rfl

set_option maxHeartbeats 4000000 in
theorem W2_v3 (c : Dev nD) : W2 m ρ c (Proc.devRef .tc main_v3) = Cert.Sage.dstRow (m ((c.tc : Thread nD τ).loc main_arg1)) := by
  dsimp only [W2, W1]
  after_results_simp
  rfl

set_option maxHeartbeats 4000000 in
theorem W2_v12 (c : Dev nD) : W2 m ρ c (Proc.devRef .tc main_v12) = Cert.Sage.recipCol (m ((c.tc : Thread nD τ).loc main_arg1)) := by
  dsimp only [W2, W1]
  after_results_simp
  rfl

set_option maxHeartbeats 4000000 in
theorem W2_arg5 (c : Dev nD) : W2 m ρ c (Proc.devRef .tc main_arg5) = m ((c.tc : Thread nD τ).loc main_arg5) := by
  dsimp only [W2, W1]
  after_results_simp

set_option maxHeartbeats 4000000 in
theorem W2_arg6 (c : Dev nD) : W2 m ρ c (Proc.devRef .tc main_arg6) = m ((c.tc : Thread nD τ).loc main_arg6) := by
  dsimp only [W2, W1]
  after_results_simp

set_option maxHeartbeats 4000000 in
theorem W2_arg7 (c : Dev nD) : W2 m ρ c (Proc.devRef .tc main_arg7) = m ((c.tc : Thread nD τ).loc main_arg7) := by
  dsimp only [W2, W1]
  after_results_simp

/-! ## Across the first call: what it does not write -/

theorem W3_v1 (c : Dev nD) : W3 m ρ c (Proc.devRef .tc main_v1) = Cert.Sage.srcRow (m ((c.tc : Thread nD τ).loc main_arg1)) :=
  (W3_of_ne m ρ c main_v1 (by decide)).trans (W2_v1 m ρ c)
theorem W3_v3 (c : Dev nD) : W3 m ρ c (Proc.devRef .tc main_v3) = Cert.Sage.dstRow (m ((c.tc : Thread nD τ).loc main_arg1)) :=
  (W3_of_ne m ρ c main_v3 (by decide)).trans (W2_v3 m ρ c)
theorem W3_v12 (c : Dev nD) : W3 m ρ c (Proc.devRef .tc main_v12) = Cert.Sage.recipCol (m ((c.tc : Thread nD τ).loc main_arg1)) :=
  (W3_of_ne m ρ c main_v12 (by decide)).trans (W2_v12 m ρ c)
theorem W3_arg5 (c : Dev nD) : W3 m ρ c (Proc.devRef .tc main_arg5) = m ((c.tc : Thread nD τ).loc main_arg5) :=
  (W3_of_ne m ρ c main_arg5 (by decide)).trans (W2_arg5 m ρ c)
theorem W3_arg6 (c : Dev nD) : W3 m ρ c (Proc.devRef .tc main_arg6) = m ((c.tc : Thread nD τ).loc main_arg6) :=
  (W3_of_ne m ρ c main_arg6 (by decide)).trans (W2_arg6 m ρ c)
theorem W3_arg7 (c : Dev nD) : W3 m ρ c (Proc.devRef .tc main_arg7) = m ((c.tc : Thread nD τ).loc main_arg7) :=
  (W3_of_ne m ρ c main_arg7 (by decide)).trans (W2_arg7 m ρ c)

/-! ## Before the second call -/

set_option maxHeartbeats 4000000 in
/-- The averaged hidden features the second call reads: the same product, of the first call's result. -/
theorem W5_v39 (c : Dev nD) : W5 m ρ c (Proc.devRef .tc main_v39)
    = Cert.Sage.meanRecip (m ((c.tc : Thread nD τ).loc main_arg1)) (W3 m ρ c (Proc.devRef .tc main_v27)) := by
  dsimp only [W5, W4]
  after_results_simp
  rw [W3_v1, W3_v3, W3_v12]
  rfl

set_option maxHeartbeats 4000000 in
theorem W5_v27 (c : Dev nD) : W5 m ρ c (Proc.devRef .tc main_v27) = W3 m ρ c (Proc.devRef .tc main_v27) := by
  dsimp only [W5, W4]
  after_results_simp

set_option maxHeartbeats 4000000 in
theorem W5_v40 (c : Dev nD) : W5 m ρ c (Proc.devRef .tc main_v40) = Cert.Sage.tr (m ((c.tc : Thread nD τ).loc main_arg5)) := by
  dsimp only [W5, W4]
  after_results_simp
  rw [W3_arg5]
  rfl

set_option maxHeartbeats 4000000 in
theorem W5_v41 (c : Dev nD) : W5 m ρ c (Proc.devRef .tc main_v41) = Cert.Sage.tr (m ((c.tc : Thread nD τ).loc main_arg6)) := by
  dsimp only [W5, W4]
  after_results_simp
  rw [W3_arg6]
  rfl

set_option maxHeartbeats 4000000 in
/-- The second bias as a one-row matrix. -/
theorem W5_call1_v0 (c : Dev nD) : W5 m ρ c (Proc.devRef .tc main_call1_v0)
    = shapeCast S1x128 (m ((c.tc : Thread nD τ).loc main_arg7)) shapeCasts_S128_S1x128 := by
  dsimp only [W5, W4]
  after_results_simp
  rw [W3_arg7]
  rfl

end Cert.KernelIdeal.Host

end
-- ==== Proof.MeanLaw.lean ====
/-
  Dividing by a count that is at least one is multiplying by its reciprocal, on every extended real.

  On the extended reals the quotient `x / c` is `x · c⁻¹` whenever `c ≠ 0`, and then `1 / c = c⁻¹`, so
  `x · (1 / c) = x / c` with no condition on `x`. A count raised to at least one is positive, whatever the count is.
-/
import proofs.«130684_j16381005267298_1_alg».proof.Proof.Spec
import Idealize.ShloMosaic.Lib.ValueIdx
import Idealize.ShloMosaic.Lib.IdealHost
import Idealize.ShloMosaic.PureOps.Ideal.Laws

noncomputable section

namespace Cert.Sage

open Idealize.ShloMosaic Idealize.ShloMosaic.ValueIdx Cert.ReferenceIdeal Cert.ReferenceIdeal.Gen

/-- The word of the float 1 denotes the real 1. -/
theorem ofBits_one : Ideal.ofBits .f32 0x3F800000#32 = 1 := by
  simp [Ideal.ofBits, Ideal.ieee, -EReal.coe_mul]; norm_num

/-- `x · (1 / c) = x / c` for a nonzero `c`. -/
theorem mul_recip (x c : EReal) (hc : c ≠ 0) :
    x * Ideal.div (Ideal.ofBits .f32 0x3F800000#32) c = Ideal.div x c := by
  unfold Ideal.div
  rw [if_neg hc, if_neg hc, ofBits_one, one_mul]

/-- A value raised to at least one is not zero. -/
theorem max_one_ne_zero (a : EReal) : max a (Ideal.ofBits .f32 0x3F800000#32) ≠ 0 := by
  rw [ofBits_one]
  exact ne_of_gt (lt_of_lt_of_le zero_lt_one (le_max_right a 1))

/-- A value spread along rows, read at an entry, is the value at the entry's row. -/
theorem spread_apply (i : S100000x128.Idx) : ∃ k : S100000.Idx, ∀ v : FVec Ideal S100000 .f32, spread v i = v k :=
  ⟨_, fun _ => rfl⟩

/-- The constant one, at every node. -/
theorem one_apply (k : S100000.Idx) :
    (broadcastInDim S100000 ![] bcast_S_S100000 (constant (F := Ideal) S_ .f32 0x3F800000#32)) k = Ideal.ofBits .f32 0x3F800000#32 := rfl

/-- The count is a maximum with one. -/
theorem deg_apply (E : Edges Ideal) (k : S100000.Idx) : ∃ a : EReal, deg E k = max a (Ideal.ofBits .f32 0x3F800000#32) := by
  unfold deg
  exact ⟨_, by rw [maximumf_apply, one_apply]⟩

/-- The two spellings of the neighbour average agree. -/
theorem meanRecip_eq_mean (E : Edges Ideal) (H : FVec Ideal S100000x128 .f32) : meanRecip E H = mean E H := by
  funext i
  unfold meanRecip mean
  rw [mulf_apply, hostDivf_apply]
  obtain ⟨k, hk⟩ := spread_apply i
  rw [hk, hk, hostDivf_apply, one_apply]
  obtain ⟨a, ha⟩ := deg_apply E k
  rw [ha]
  exact mul_recip _ _ (max_one_ne_zero a)

end Cert.Sage

end
-- ==== Proof.KernelValue.lean ====
/-
  The kernel program's result, as a function of its arguments.

  The second pallas_call's result array is its layer on the arrays the host operations before it wrote; those are the
  neighbour average (as a product with the reciprocal count) of the first call's result, the transposed weights and the bias
  re-laid as a one-row matrix. The first call's result is its layer on the same of the node features. A vector re-laid as a
  one-row matrix is the vector broadcast into a one-row matrix, and the product with the reciprocal count is the quotient
  by the count, so the result is the two-layer function `Sage.out`.
-/
import proofs.«130684_j16381005267298_1_alg».proof.Proof.Region0
import proofs.«130684_j16381005267298_1_alg».proof.Proof.Region1
import proofs.«130684_j16381005267298_1_alg».proof.Proof.HostChain
import proofs.«130684_j16381005267298_1_alg».proof.Proof.MeanLaw
import Idealize.ShloMosaic.Lib.ValueLayout

set_option maxRecDepth 16384

noncomputable section

namespace Cert.KernelIdeal.ValueLeg

open Cert.KernelIdeal Cert.KernelIdeal.Gen Cert.KernelIdeal.Host
open Idealize.ShloMosaic Idealize.ShloMosaic.TcCoe Idealize.ShloMosaic.ValueIdx Idealize.SL.Sem

variable (m : (ℓ : Loc nD τ sig) → Buf (Elt Ideal) ℓ) (ρ : Dev nD → PrngReg)

/-- A vector re-laid as a one-row matrix is the vector broadcast into one row. -/
theorem cast_eq_biasRow (b : FVec Ideal S128 .f32) : shapeCast S1x128 b shapeCasts_S128_S1x128 = Cert.Sage.biasRow b := by
  funext j
  obtain ⟨u, q, rfl⟩ : ∃ (u : Fin 1) (q : Fin 128), j = ix2 u q := ⟨j 0, j 1, eq_ix2 j⟩
  rw [shapeCast_a_1a_apply]
  unfold Cert.Sage.biasRow
  refine Eq.symm (broadcastInDim_apply ![1] _ b (ix2 u q) (ix1 q) fun a => ?_)
  match a with
  | ⟨0, _⟩ => rfl

/-- The first call's result array holds what the call's write-backs leave, -/
theorem hidden_arr (c : Dev nD) : W3 m ρ c (Proc.devRef .tc main_v27) = (dat0 (V2 m ρ) c).arrAt 5 cfg0.N := W3_arr m ρ c 5

/-- which is the first layer on the arrays the call is given, -/
theorem hidden_layer (c : Dev nD) : (dat0 (V2 m ρ) c).arrAt 5 cfg0.N = Cert.KernelIdeal.Layer0.layer (V2 m ρ) c :=
  Cert.KernelIdeal.Layer0.final (V2 m ρ) c

/-- those arrays being the contents after the host operations before the call. -/
theorem hidden_args (c : Dev nD) : Cert.KernelIdeal.Layer0.layer (V2 m ρ) c
    = Cert.Sage.layer0 (W2 m ρ c (Proc.devRef .tc main_v24)) (W2 m ρ c (Proc.devRef .tc main_arg0)) (W2 m ρ c (Proc.devRef .tc main_v25))
        (W2 m ρ c (Proc.devRef .tc main_v26)) (W2 m ρ c (Proc.devRef .tc main_call0_v0)) := rfl

/-- The same three steps for the second call. -/
theorem result_arr (c : Dev nD) : W6 m ρ c (Proc.devRef .tc main_v42) = (dat1 (V5 m ρ) c).arrAt 5 cfg1.N := W6_arr m ρ c 5
theorem result_layer (c : Dev nD) : (dat1 (V5 m ρ) c).arrAt 5 cfg1.N = Cert.KernelIdeal.Layer1.layer (V5 m ρ) c :=
  Cert.KernelIdeal.Layer1.final (V5 m ρ) c
theorem result_args (c : Dev nD) : Cert.KernelIdeal.Layer1.layer (V5 m ρ) c
    = Cert.Sage.layer1 (W5 m ρ c (Proc.devRef .tc main_v39)) (W5 m ρ c (Proc.devRef .tc main_v27)) (W5 m ρ c (Proc.devRef .tc main_v40))
        (W5 m ρ c (Proc.devRef .tc main_v41)) (W5 m ρ c (Proc.devRef .tc main_call1_v0)) := rfl

/-- The first call's result: the first layer of the node features. -/
theorem hidden_eq (c : Dev nD) : W3 m ρ c (Proc.devRef .tc main_v27)
    = Cert.Sage.layer0 (Cert.Sage.mean (m ((c.tc : Thread nD τ).loc main_arg1)) (m ((c.tc : Thread nD τ).loc main_arg0)))
        (m ((c.tc : Thread nD τ).loc main_arg0)) (Cert.Sage.tr (m ((c.tc : Thread nD τ).loc main_arg2)))
        (Cert.Sage.tr (m ((c.tc : Thread nD τ).loc main_arg3))) (Cert.Sage.biasRow (m ((c.tc : Thread nD τ).loc main_arg4))) := by
  rw [hidden_arr, hidden_layer, hidden_args, W2_v24, W2_arg0, W2_v25, W2_v26, W2_call0_v0, cast_eq_biasRow, Cert.Sage.meanRecip_eq_mean]

/-- The program's result: the two layers. -/
theorem result_eq (c : Dev nD) : W6 m ρ c (Proc.devRef .tc main_v42)
    = Cert.Sage.out (m ((c.tc : Thread nD τ).loc main_arg1)) (m ((c.tc : Thread nD τ).loc main_arg0))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  rw [result_arr, result_layer, result_args, W5_v39, W5_v27, W5_v40, W5_v41, W5_call1_v0, cast_eq_biasRow, Cert.Sage.meanRecip_eq_mean, hidden_eq]
  rfl

end Cert.KernelIdeal.ValueLeg

end
-- ==== Proof.RefIsOut.lean ====
/-
  The reference program's result is the two-layer function `Sage.out` of its arguments: the program's composed term and the
  function are the same operations in the same order, so the equation holds by unfolding the definitions.
-/
import proofs.«130684_j16381005267298_1_alg».proof.Proof.Gen.ReferenceIdeal.Run
import proofs.«130684_j16381005267298_1_alg».proof.Proof.Spec

noncomputable section

namespace Cert.Sage

open Idealize.ShloMosaic Idealize.ShloMosaic.TcCoe Idealize.SL.Sem Cert.ReferenceIdeal Cert.ReferenceIdeal.Gen

variable {F : FTy → Type} [FloatOps F]

set_option maxRecDepth 16384 in
theorem reference_is_out (m : (ℓ : Loc nD τ sig) → Buf (Elt F) ℓ) (c : Dev nD) :
    Cert.ReferenceIdeal.Value.res_main_v58 m c
      = out (m ((c.tc : Thread nD τ).loc main_arg1)) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := rfl

end Cert.Sage

end
-- ==== Proof.lean ====
/-
  A two-layer graph convolution: the kernel program against the reference, over the extended reals.

  Both programs gather the rows of the node matrix at the edges' sources, add them up per destination node, and divide by
  the number of incoming edges (at least one); a layer is `mean · Wlᵀ + b + H · Wrᵀ`, the first followed by a rectifier.
  The kernel program multiplies by the reciprocal of the count where the reference divides by it; it computes each layer's
  two matrix products, their sum and the bias in a pallas_call over blocks of 2000 rows, adding the bias last where the
  reference adds it between the two products.

  The claims: each program terminates without a fault and leaves its arguments unchanged (the kernels' frames are the
  generated ones, the reference's its generated run); the idealization rewrote nothing; and the two results agree entry
  by entry. For the last, both results are shown to be the one function `Sage.out` of the arguments: the reference's
  composed term by unfolding (`Sage.reference_is_out`), the kernel program's by reading the result array back through the
  second call, the host operations between the calls, the first call and the host operations before it
  (`KernelIdeal.ValueLeg.result_eq`). The count is a maximum with one, hence not zero, and then `x · (1 / c) = x / c` for
  every extended real `x`; addition of extended reals is commutative and associative, which moves the bias; a row of a
  matrix product depends on the same row of the left factor only, which makes the blocks of rows independent.
-/
import proofs.«130684_j16381005267298_1_alg».proof.Defs
import proofs.«130684_j16381005267298_1_alg».proof.Proof.Gen.Kernel
import proofs.«130684_j16381005267298_1_alg».proof.Proof.Gen.Kernel.Frame
import proofs.«130684_j16381005267298_1_alg».proof.Proof.Gen.KernelIdeal
import proofs.«130684_j16381005267298_1_alg».proof.Proof.Gen.KernelIdeal.Frame
import proofs.«130684_j16381005267298_1_alg».proof.Proof.Gen.ReferenceIdeal
import proofs.«130684_j16381005267298_1_alg».proof.Proof.Gen.Pre_finite_inputs
import proofs.«130684_j16381005267298_1_alg».proof.Proof.Gen.ReferenceIdeal.Run
import proofs.«130684_j16381005267298_1_alg».proof.Proof.KernelRun
import proofs.«130684_j16381005267298_1_alg».proof.Proof.KernelValue
import proofs.«130684_j16381005267298_1_alg».proof.Proof.RefIsOut
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the two-layer function of the arguments in their result arrays. -/
theorem algebraic : Cert.algebraic_KernelIdeal_ReferenceIdeal := by
  intro m ρ m' ρ' _ hagree
  refine ⟨fun c => Cert.Sage.out (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.ValueLeg.result_eq m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.Sage.reference_is_out]
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
